-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.SqDist.lean ====
/-
  The pairwise squared Euclidean distance in its expanded form, over the extended reals.

  For a matrix x with rows x_p and a matrix y with rows y_q (both of row length D), the entry (p, q) is
      max( (‖x_p‖² + ‖y_q‖²) − 2 · ⟨x_p, y_q⟩ , 0 ),
  where ‖x_p‖² = Σ_k x(p,k)·x(p,k), ‖y_q‖² = Σ_k y(q,k)·y(q,k) and ⟨x_p, y_q⟩ = Σ_k x(p,k)·y(q,k), the factor 2 and
  the clamp 0 kept as the single-precision words both programs print (the same words on both sides, so they are never
  evaluated). The entry depends on x only through row p and on y only through row q: that is what lets a tile of
  the result, computed from a block of rows of x and a block of rows of y, be a restriction of the whole table.
-/
import Idealize.ShloMosaic.PureOps.Ideal
import Idealize.ShloMosaic.Lib.ValueIdx

noncomputable section

namespace Cert.SqDist

open Idealize.ShloMosaic Idealize.ShloMosaic.ValueIdx

/-- Entry (p, q) of the clamped expanded squared distance between the rows of `x` and the rows of `y`. -/
def sqdist {N M D : ℕ} (x : (⟨2, ![N, D]⟩ : Shape).Idx → EReal) (y : (⟨2, ![M, D]⟩ : Shape).Idx → EReal)
    (p : Fin N) (q : Fin M) : EReal :=
  max (((∑ k : Fin D, x (ix2 p k) * x (ix2 p k)) + ∑ k : Fin D, y (ix2 q k) * y (ix2 q k))
        - Ideal.ofBits .f32 0x40000000#32 * ∑ k : Fin D, x (ix2 p k) * y (ix2 q k))
    (Ideal.ofBits .f32 0x00000000#32)

/-- The entry reads only row p of the first matrix and row q of the second: two pairs of matrices whose rows agree
    there give the same entry (a block of rows against the whole matrix, for one). -/
theorem sqdist_congr {N M N' M' D : ℕ}
    (x : (⟨2, ![N, D]⟩ : Shape).Idx → EReal) (y : (⟨2, ![M, D]⟩ : Shape).Idx → EReal)
    (x' : (⟨2, ![N', D]⟩ : Shape).Idx → EReal) (y' : (⟨2, ![M', D]⟩ : Shape).Idx → EReal)
    (p : Fin N) (q : Fin M) (p' : Fin N') (q' : Fin M')
    (hx : ∀ k : Fin D, x (ix2 p k) = x' (ix2 p' k)) (hy : ∀ k : Fin D, y (ix2 q k) = y' (ix2 q' k)) :
    sqdist x y p q = sqdist x' y' p' q' := by
  unfold sqdist
  simp only [hx, hy]

/-- The table of clamped expanded squared distances between the rows of two 8192 × 128 matrices: what both
    programs are shown to compute. -/
def table (X Y : (⟨2, ![8192, 128]⟩ : Shape).Idx → EReal) : (⟨2, ![8192, 8192]⟩ : Shape).Idx → EReal :=
  fun i => sqdist X Y (i 0) (i 1)

end Cert.SqDist

end
-- ==== Proof.TileValue.lean ====
/-
  What the kernel body computes for one tile, entry by entry, over the extended reals.

  The body loads a block x of 1024 rows of the first matrix and a block y of 1024 rows of the second. It forms the
  row sums of squares of each block (a lane sum over the 128 columns), keeps the first as a column and turns the
  second into a row (a shape cast to one column, then a transpose), forms the Gram block x · yᵀ on the matrix unit
  (the operands narrowed to bfloat16, which over the extended reals changes nothing, and y transposed so that the
  product is a plain rows-by-columns contraction into a zero accumulator), and combines them as
  max((‖x_p‖² + ‖y_q‖²) − 2·⟨x_p, y_q⟩, 0). Entry (p, q) of the tile is therefore the expanded squared distance of
  the blocks' rows p and q.
-/
import proofs.«154243_j31181462569006_1_alg».proof.Proof.Gen.KernelIdeal.Skeleton
import proofs.«154243_j31181462569006_1_alg».proof.Proof.LibKeepdims
import proofs.«154243_j31181462569006_1_alg».proof.Proof.LibPlainDot
import proofs.«154243_j31181462569006_1_alg».proof.Proof.SqDist
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open Cert.Lib.Keepdims Cert.Lib.PlainDot Cert.SqDist

/-- A block's row sums of squares, kept as a column and spread along the tile's rows: at (p, q) it is ‖x_p‖². -/
theorem rowNorm_apply (x : Vec Ideal S1024x128 .f32) (p q : Fin 1024) :
    broadcastTo S1024x1024
        (shapeCast S1024x1 (multiReduction (F := Ideal) .add [1] S1024 (mulf x x) 0x00000000#32 reduces_S1024x128_S1024 (.inl rfl) rfl)
          shapeCasts_S1024_S1024x1)
        broadcasts_S1024x1_S1024x1024 (ix2 p q)
      = ∑ k : Fin 128, x (ix2 p k) * x (ix2 p k) := by
  rw [broadcastTo_a1_ab_apply, shapeCast_a_a1_apply]
  exact rowSum_apply (mulf x x) 0x00000000#32 reduces_S1024x128_S1024 (.inl rfl) rfl p

/-- The other block's row sums of squares, turned into a row and spread along the tile's columns: at (p, q) it is
    ‖y_q‖². -/
theorem colNorm_apply (y : Vec Ideal S1024x128 .f32) (p q : Fin 1024) :
    broadcastTo S1024x1024
        (transpose S1x1024 [1, 0]
          (shapeCast S1024x1 (multiReduction (F := Ideal) .add [1] S1024 (mulf y y) 0x00000000#32 reduces_S1024x128_S1024 (.inl rfl) rfl)
            shapeCasts_S1024_S1024x1)
          transposes_S1024x1_p1_0_S1x1024)
        broadcasts_S1x1024_S1024x1024 (ix2 p q)
      = ∑ k : Fin 128, y (ix2 q k) * y (ix2 q k) := by
  rw [broadcastTo_1b_ab_apply, transpose_ix2_apply, shapeCast_a_a1_apply]
  exact rowSum_apply (mulf y y) 0x00000000#32 reduces_S1024x128_S1024 (.inl rfl) rfl q

/-- The Gram block: the product of the first block with the transposed second, into a zero accumulator, is at
    (p, q) the inner product of row p of the first block and row q of the second. -/
theorem gram_apply (x y : Vec Ideal S1024x128 .f32) (p q : Fin 1024) :
    matmul (F := Ideal) dot_S1024x128_S128x1024_S1024x1024_1_0_0_1_n_n none
        (truncf .bf16 x bitsLt_bf16_f32)
        (transpose S128x1024 [1, 0] (truncf .bf16 y bitsLt_bf16_f32) transposes_S1024x128_p1_0_S128x1024)
        (constant (F := Ideal) S1024x1024 .f32 0x00000000#32) (ix2 p q)
      = ∑ k : Fin 128, x (ix2 p k) * y (ix2 q k) := by
  refine (matmul_zero_apply 1024 128 1024 none _ _ p q).trans ?_
  refine Finset.sum_congr rfl fun k _ => ?_
  rw [transpose_ix2_apply]
  rfl

/-- THE TILE: entry (p, q) of the body's stored value is the expanded squared distance of the blocks' rows. -/
theorem pay_apply (x y : Vec Ideal S1024x128 .f32) (p q : Fin 1024) :
    k0_pay1 (F := Ideal) x y (ix2 p q) = sqdist x y p q := by
  unfold k0_pay1 sqdist
  show max ((_ + _) - Ideal.ofBits .f32 0x40000000#32 * _) (Ideal.ofBits .f32 0x00000000#32) = _
  rw [rowNorm_apply, colNorm_apply, gram_apply]

end Cert.KernelIdeal.Tile

end
-- ==== Proof.WholeValue.lean ====
/-
  From tiles to the whole table.

  The grid has 8 × 8 points. At point (a, b) the kernel is given rows 1024·a … 1024·a + 1023 of the first matrix and
  rows 1024·b … 1024·b + 1023 of the second (each block spans all 128 columns), and writes back the 1024 × 1024 tile
  of the result whose corner is (1024·a, 1024·b). Entry (p, q) of the tile is the expanded squared distance of the
  blocks' rows p and q, which are rows 1024·a + p and 1024·b + q of the whole matrices: so the tile is the
  corresponding restriction of ONE table over the whole matrices. The 64 tiles cover every index of the result (the
  tile of index i is the one at (i₀ / 1024, i₁ / 1024)), hence after the run the result array is that table.
-/
import proofs.«154243_j31181462569006_1_alg».proof.Proof.Gen.KernelIdeal.Value
import proofs.«154243_j31181462569006_1_alg».proof.Proof.TileValue
import Idealize.ShloMosaic.Lib.Pipeline.Value

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.SqDist Cert.KernelIdeal.Tile
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- A tile entry against the table: if rows j₀ of the first block and j₁ of the second are rows i₀ and i₁ of the
    whole matrices, the body's value at j is the table's at i. -/
theorem tile_eq (X Y : S8192x128.Idx → EReal) (x y : Vec Ideal S1024x128 .f32) (j : S1024x1024.Idx) (i : S8192x8192.Idx)
    (hx : ∀ k : Fin 128, x (ix2 (j 0) k) = X (ix2 (i 0) k)) (hy : ∀ k : Fin 128, y (ix2 (j 1) k) = Y (ix2 (i 1) k)) :
    k0_pay1 (F := Ideal) x y j = table X Y i :=
  (congrArg (k0_pay1 (F := Ideal) x y) (eq_ix2 j)).trans
    ((pay_apply x y (j 0) (j 1)).trans (sqdist_congr x y X Y (j 0) (j 1) (i 0) (i 1) hx hy))

/-- The printed index maps over the 64 points: the first matrix's block follows the tile's row index, the second's
    the tile's column index, both span all columns, and the tile's indices stay below 8. -/
theorem blockIdx : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile position is some point's. -/
theorem blockOnto : ∀ (a b : Fin 8), ∃ t : Fin cfg0.N, win0_2.index t = ![a.val, b.val] :=
  (by decide +kernel : ∀ (a b : Fin 8), ∃ t : Fin grid0.N, win0_2.index t = ![a.val, b.val])

/-- WHAT POINT `t` WRITES BACK is tile `t` of the table of the argument arrays. -/
theorem flushed_eq (c : Dev nD) (t : Fin cfg0.N) :
    (dats m 0 c).flushed 2 t = ((cfg0.win 2).blk t).view.read (Elt Ideal) (table (V m c main_arg0) (V m c main_arg1)) := by
  rw [flushed2]
  unfold out0_2
  rw [View.canon_unit_zero origin]
  simp only [View.ld_unit_zero (S := S1024x128) origin]
  obtain ⟨e0, e1, e2, e3, e4, e5⟩ := blockIdx t
  funext j
  refine tile_eq (V m c main_arg0) (V m c main_arg1) (iblk m c 0 t) (iblk m c 1 t) j (((cfg0.win 2).blk t).view.emb j) (fun k => ?_) (fun k => ?_)
  · show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * k.val = k.val; omega
  · show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 128 + 1 * k.val = k.val; omega

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: index i lies in the tile at (i₀ / 1024, i₁ / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := blockOnto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the table of the argument arrays. -/
theorem final (c : Dev nD) :
    (dats m 0 c).arrAt 2 cfg0.N = table (m ((c : Thread nD τ).loc main_arg0)) (m ((c : Thread nD τ).loc main_arg1)) :=
  (dats m 0 c).arrAt_eq_of_cover 2 (table (V m c main_arg0) (V m c main_arg1)) (fun t _ => flushed_eq m c t) covered

/-- The kernel's run, read: the result at the table of the arguments, the arguments unchanged. -/
theorem run : θ_run defs (onTc (τ := τ) (main (F := Ideal))) ⟨m, fun _ => 0, ρ⟩ fun r => ∀ c : Dev nD,
      r.2.mem ((c : Thread nD τ).loc main_v0) = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference, entry by entry.

  The reference forms the row sums of squares of each matrix (a sum from the zero word over the 128 columns),
  spreads the first along rows and the second along columns, takes the matrix of inner products of the rows by one
  contraction over the columns, and returns max((‖x_p‖² + ‖y_q‖²) − 2·⟨x_p, y_q⟩, 0). Read at an index, every stage
  is the stage before it at an index; the sums start from zero, which adds nothing. The result is the table of
  clamped expanded squared distances of the two argument matrices.
-/
import proofs.«154243_j31181462569006_1_alg».proof.Proof.Gen.ReferenceIdeal.Read
import proofs.«154243_j31181462569006_1_alg».proof.Proof.SqDist
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SqDist

/-- The reference's last stage is the table of its two arguments. -/
theorem result_eq (X Y : (⟨S8192x128, .f32⟩ : BufTy).Contents (Elt Ideal)) :
    val_main_v14 (F := Ideal) X Y = table X Y := by
  funext i
  have hp : ∀ k : Fin 128, idx_main_v1 (idx_main_v5 (idx_main_v7 i)) k = ix2 (i 0) k := fun k =>
    funext fun a => Fin.ext (by match a with | ⟨0, _⟩ => rfl | ⟨1, _⟩ => rfl)
  have hq : ∀ k : Fin 128, idx_main_v3 (idx_main_v6 (idx_main_v8 i)) k = ix2 (i 1) k := fun k =>
    funext fun a => Fin.ext (by match a with | ⟨0, _⟩ => rfl | ⟨1, _⟩ => rfl)
  have hl : ∀ k : Fin 128, lidx_main_v4 i k = ix2 (i 0) k := fun k =>
    funext fun a => Fin.ext (by match a with | ⟨0, _⟩ => rfl | ⟨1, _⟩ => rfl)
  have hr : ∀ k : Fin 128, ridx_main_v4 i k = ix2 (i 1) k := fun k =>
    funext fun a => Fin.ext (by match a with | ⟨0, _⟩ => rfl | ⟨1, _⟩ => rfl)
  rw [val_main_v14_apply, val_main_v12_apply, val_main_v13_apply, val_main_cst_2_apply, val_main_v9_apply,
    val_main_v11_apply, val_main_v10_apply, val_main_cst_1_apply, val_main_v4_apply, val_main_v7_apply,
    val_main_v5_apply, val_main_v1_apply, val_main_cst_apply, val_main_v8_apply, val_main_v6_apply,
    val_main_v3_apply, val_main_cst_0_apply]
  simp only [val_main_v0_apply, val_main_v2_apply, hp, hq, hl, hr, Ideal.ofBits_def, Ideal.addf_def, Ideal.subf_def,
    Ideal.mulf_def, Ideal.maximumf_def, Ideal.ofBits_zero_f32, zero_add]
  unfold table sqdist
  simp only [Ideal.ofBits_zero_f32]
  rfl

end Cert.ReferenceIdeal.RefValue

end
-- ==== Proof.lean ====
/-
  Pairwise squared Euclidean distances, tiled: the kernel against its reference, over the extended reals.

  Both programs compute, for two 8192 × 128 matrices x and y, the 8192 × 8192 table
      d(p, q) = max( (‖x_p‖² + ‖y_q‖²) − 2·⟨x_p, y_q⟩ , 0 )
  of clamped squared distances in expanded (Gram) form. The reference does it with whole-array operations. The
  kernel walks an 8 × 8 grid; at each point it takes 1024 rows of x and 1024 rows of y, forms the two vectors of row
  norms and the 1024 × 1024 Gram block on the matrix unit (operands narrowed to bfloat16, which is the identity on
  the extended reals), and writes one tile of the table.

  The two sides apply the same operations in the same order to each entry — the same sums over the 128 columns, the
  same literal words for 2 and 0 — so no algebraic law beyond reading each stage at an index is needed, and the
  finiteness of the inputs is never used. What is proved by hand: entry (p, q) of a tile is d of the blocks' rows
  (Proof/TileValue.lean); the tiles are restrictions of one table and cover it, so the kernel's result array is the
  table (Proof/WholeValue.lean); the reference's result is the same table (Proof/RefValue.lean). The idealization
  rewrote nothing, so its conjunct is trivial; the three frames are the generated runs.
-/
import proofs.«154243_j31181462569006_1_alg».proof.Defs
import proofs.«154243_j31181462569006_1_alg».proof.Proof.Gen.Kernel
import proofs.«154243_j31181462569006_1_alg».proof.Proof.Gen.Kernel.Skeleton
import proofs.«154243_j31181462569006_1_alg».proof.Proof.Gen.Kernel.Launch
import proofs.«154243_j31181462569006_1_alg».proof.Proof.Gen.Kernel.Points
import proofs.«154243_j31181462569006_1_alg».proof.Proof.Gen.Kernel.Frame
import proofs.«154243_j31181462569006_1_alg».proof.Proof.Gen.KernelIdeal
import proofs.«154243_j31181462569006_1_alg».proof.Proof.Gen.KernelIdeal.Skeleton
import proofs.«154243_j31181462569006_1_alg».proof.Proof.Gen.KernelIdeal.Launch
import proofs.«154243_j31181462569006_1_alg».proof.Proof.Gen.KernelIdeal.Points
import proofs.«154243_j31181462569006_1_alg».proof.Proof.Gen.KernelIdeal.Frame
import proofs.«154243_j31181462569006_1_alg».proof.Proof.Gen.ReferenceIdeal
import proofs.«154243_j31181462569006_1_alg».proof.Proof.Gen.Pre_finite_inputs
import proofs.«154243_j31181462569006_1_alg».proof.Proof.Gen.KernelIdeal.Value
import proofs.«154243_j31181462569006_1_alg».proof.Proof.Gen.ReferenceIdeal.Run
import proofs.«154243_j31181462569006_1_alg».proof.Proof.Gen.ReferenceIdeal.Read
import proofs.«154243_j31181462569006_1_alg».proof.Proof.WholeValue
import proofs.«154243_j31181462569006_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are the same table of clamped
    expanded squared distances. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
